-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S100000x40 : Shape := ⟨2, ![100000, 40]⟩
abbrev S5000x40 : Shape := ⟨2, ![5000, 40]⟩
abbrev S1x64 : Shape := ⟨2, ![1, 64]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x40, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S1700000x40, .f32⟩
  | .hbm, ⟨78, _⟩ => ⟨S1700000x40, .f32⟩
  | .hbm, ⟨79, _⟩ => ⟨S_, .f32⟩
  | .hbm, ⟨80, _⟩ => ⟨S100000x40, .f32⟩
  | .hbm, ⟨81, _⟩ => ⟨S1700000x1, .i32⟩
  | .hbm, ⟨82, _⟩ => ⟨S100000x40, .f32⟩
  | .hbm, ⟨83, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S40, .f32⟩
  | .local _ .vmem, ⟨14, _⟩ => ⟨S5000x40, .f32⟩
  | .local _ .vmem, ⟨15, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40.size a ≤ S40.size a
  hwx2_1 : ∀ i : grid2.Coords, EltTy.bits .f32 = 32 ∨ (Rect.block (s := S40) S40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x40, .f32⟩
  | 6 => ⟨S40, .f32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x40, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x40, .f32⟩
  | 121 => ⟨S1700000x40, .f32⟩
  | 122 => ⟨S1700000x40, .f32⟩
  | 123 => ⟨S_, .f32⟩
  | 124 => ⟨S100000x40, .f32⟩
  | 125 => ⟨S1700000x1, .i32⟩
  | 126 => ⟨S100000x40, .f32⟩
  | 127 => ⟨S1x40, .f32⟩
  | _ => ⟨S100000x128, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x40, .f32⟩
  | 9 => ⟨S100000x40, .f32⟩
  | 10 => ⟨S100000x40, .f32⟩
  | 11 => ⟨S_, .f32⟩
  | 12 => ⟨S100000, .f32⟩
  | 13 => ⟨S100000x1, .f32⟩
  | 14 => ⟨S100000x1, .f32⟩
  | 15 => ⟨S100000x40, .f32⟩
  | 16 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_call3_cst_0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_cst_1 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_v95 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibCat.lean ====
/-
  A concatenate of two arrays with its two operands as plain arguments. The library's `concatenate` takes its
  operands in a list of (shape, contents) pairs, and its shape fact is stated over that list, so a rewriting pass
  that stops at dependent arguments does not reach the contents inside the list. `cat2` is the same function
  with the two contents as ordinary arguments: folding a two-operand concatenate into it lets a rewrite reach
  them, and unfolding it gives the concatenate back.
-/
import Idealize.ShloMosaic.PureOps.ShapeOps

namespace Idealize.ShloMosaic

/-- The concatenate of two arrays along an axis, the operands as plain arguments. -/
def cat2 {α : Type} (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

/-- A two-operand concatenate is `cat2` of its operands. -/
theorem cat2_fold {α : Type} (t : Shape) (ax : Fin t.rank) (s1 s2 : Shape) (h : Shape.Concatenates [s1, s2] t ax)
    (a : s1.Idx → α) (b : s2.Idx → α) :
    concatenate t ax [⟨s1, a⟩, ⟨s2, b⟩] h = cat2 t ax s1 s2 h a b := rfl

end Idealize.ShloMosaic
-- ==== Proof.RefStages.lean ====
/-
  The reference program's run, read back over its stages. Its 138 host operations are cut into nine consecutive
  stretches: the edge lists, the degree normalisation and the first matrix product; the first layer's gather,
  scale and scatter; the bias, the clamp and the second matrix product; the second computation of the edge
  lists and the normalisation; the second layer's gather, scale and scatter; the bias and the log-softmax, in four short stretches.
  After each stretch the buffers that later stretches read hold the stage functions of the argument arrays
  (every operation's result at its own buffer is its function's value, any other buffer is what was there), so
  after the last one the result buffer holds the last stage, and the argument arrays are as launched.
-/
import proofs.«156127_j30039001269040_1_alg».proof.Proof.RefOps
import proofs.«156127_j30039001269040_1_alg».proof.Proof.RefRead
import proofs.«156127_j30039001269040_1_alg».proof.Proof.LibCat
import Idealize.ShloMosaic.Lib.Pipeline.Frame

set_option maxRecDepth 16384

noncomputable section

namespace Cert.ReferenceIdeal.Stages

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Read one buffer back through a list of host operations: every operation's result at its own buffer is its
    function's value and any other buffer is what was there; a two-operand concatenate is folded so that the
    pass reaches its operands, and the typed references of an inlined call are plain buffers. -/
macro "host_read" : tactic =>
  `(tactic| (after_results_simp
             (try simp only [cat2_fold])
             (try after_results_simp)
             (try simp only [cat2, TRef.ofBuf, TRef.toBuf, cast_eq])))

/-! ## The nine stretches -/

/-- Operations 1 … 43 of @main. -/
abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_arg2 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v6 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v19 (broadcastInDim S1700000 ![] bcast_S_S1700000 : (⟨S_, .i32⟩ : BufTy).Contents (Elt F) → (⟨S1700000, .i32⟩ : BufTy).Contents (Elt F)),
    binary main_v6 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v6 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v9 main_v24 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v25 (broadcastInDim S1700000 ![] bcast_S_S1700000 : (⟨S_, .i32⟩ : BufTy).Contents (Elt F) → (⟨S1700000, .i32⟩ : BufTy).Contents (Elt F)),
    binary main_v7 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v27 (broadcastInDim S1700000 ![] bcast_S_S1700000 : (⟨S_, .i32⟩ : BufTy).Contents (Elt F) → (⟨S1700000, .i32⟩ : BufTy).Contents (Elt F)),
    binary main_v7 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)) ]

/-- Operations 44 … 59 of @main. -/
abbrev ops2 : List (HloOp τ sig (Elt F)) :=
  [ unary main_v32 main_v33 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v34 (broadcastInDim S1700000 ![] bcast_S_S1700000 : (⟨S_, .i32⟩ : BufTy).Contents (Elt F) → (⟨S1700000, .i32⟩ : BufTy).Contents (Elt F)),
    binary main_v6 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v36 (broadcastInDim S1700000 ![] bcast_S_S1700000 : (⟨S_, .i32⟩ : BufTy).Contents (Elt F) → (⟨S1700000, .i32⟩ : BufTy).Contents (Elt F)),
    binary main_v6 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v6 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v4 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v33 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v41 main_v40 main_v42 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v43 (broadcastInDim S100000x64 ![] bcast_S_S100000x64 : (⟨S_, .f32⟩ : BufTy).Contents (Elt F) → (⟨S100000x64, .f32⟩ : BufTy).Contents (Elt F)),
    unary main_v7 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 60 … 66 of @main. -/
abbrev ops3 : List (HloOp τ sig (Elt F)) :=
  [ unary main_arg4 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg5 main_v50 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

/-- Operations 67 … 104 of @main. -/
abbrev ops4 : List (HloOp τ sig (Elt F)) :=
  [ nullary main_v51 (iotaInDim S100000 32 0),
    binary main_v1 main_v51 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v51 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v54 (broadcastInDim S100000 ![] bcast_S_S100000 : (⟨S_, .f32⟩ : BufTy).Contents (Elt F) → (⟨S100000, .f32⟩ : BufTy).Contents (Elt F)),
    binary main_arg2 main_v54 main_v55 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v53 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v52 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v52 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v52 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v55 main_v70 (mulf : (⟨S1700000, .f32⟩ : BufTy).Contents (Elt F) → (⟨S1700000, .f32⟩ : BufTy).Contents (Elt F) → (⟨S1700000, .f32⟩ : BufTy).Contents (Elt F)),
    nullary main_c_15 (constantI S_ 32 0#32),
    unary main_c_15 main_v71 (broadcastInDim S1700000 ![] bcast_S_S1700000 : (⟨S_, .i32⟩ : BufTy).Contents (Elt F) → (⟨S1700000, .i32⟩ : BufTy).Contents (Elt F)),
    binary main_v53 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v73 (broadcastInDim S1700000 ![] bcast_S_S1700000 : (⟨S_, .i32⟩ : BufTy).Contents (Elt F) → (⟨S1700000, .i32⟩ : BufTy).Contents (Elt F)),
    binary main_v53 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v53 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v62 main_v76 main_v77 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v70 main_v77 main_v78 (mulf : (⟨S1700000, .f32⟩ : BufTy).Contents (Elt F) → (⟨S1700000, .f32⟩ : BufTy).Contents (Elt F) → (⟨S1700000, .f32⟩ : BufTy).Contents (Elt F)) ]

/-- Operations 105 … 120 of @main. -/
abbrev ops5 : List (HloOp τ sig (Elt F)) :=
  [ unary main_v78 main_v79 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v80 (broadcastInDim S1700000 ![] bcast_S_S1700000 : (⟨S_, .i32⟩ : BufTy).Contents (Elt F) → (⟨S1700000, .i32⟩ : BufTy).Contents (Elt F)),
    binary main_v52 main_v80 main_v81 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v82 (broadcastInDim S1700000 ![] bcast_S_S1700000 : (⟨S_, .i32⟩ : BufTy).Contents (Elt F) → (⟨S1700000, .i32⟩ : BufTy).Contents (Elt F)),
    binary main_v52 main_v82 main_v83 (addi : (⟨S1700000, .i32⟩ : BufTy).Contents (Elt F) → (⟨S1700000, .i32⟩ : BufTy).Contents (Elt F) → (⟨S1700000, .i32⟩ : BufTy).Contents (Elt F)),
    ternary main_v81 main_v83 main_v52 main_v84 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v84 main_v85 (broadcastInDim S1700000x1 ![0] bcast_S1700000_S1700000x1_0 : (⟨S1700000, .i32⟩ : BufTy).Contents (Elt F) → (⟨S1700000x1, .i32⟩ : BufTy).Contents (Elt F)),
    binary main_v50 main_v85 main_v86 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v79 main_v87 (broadcastInDim S1700000x40 ![0, 1] bcast_S1700000x1_S1700000x40_0_1 : (⟨S1700000x1, .f32⟩ : BufTy).Contents (Elt F) → (⟨S1700000x40, .f32⟩ : BufTy).Contents (Elt F)),
    binary main_v87 main_v86 main_v88 (mulf : (⟨S1700000x40, .f32⟩ : BufTy).Contents (Elt F) → (⟨S1700000x40, .f32⟩ : BufTy).Contents (Elt F) → (⟨S1700000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v53 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- Operations 121 … 125 of @main. -/
abbrev ops6 : List (HloOp τ sig (Elt F)) :=
  [ unary main_arg6 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_) ]

/-- Operations 126 … 130 of @main. -/
abbrev ops7 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1) ]

/-- Operations 131 … 134 of @main. -/
abbrev ops8 : List (HloOp τ sig (Elt F)) :=
  [ TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]

/-- Operations 135 … 138 of @main. -/
abbrev ops9 : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

set_option maxRecDepth 8192 in
/-- The operation list is its nine stretches in order. -/
theorem ops_eq : (ops : List (HloOp τ sig (Elt F))) = ops1 ++ (ops2 ++ (ops3 ++ (ops4 ++ (ops5 ++ (ops6 ++ (ops7 ++ (ops8 ++ ops9))))))) := rfl

/-! ## What each stretch leaves -/

section
variable (U : Valuation τ sig (Elt F))
  (x0 : (⟨S100000x128, .f32⟩ : BufTy).Contents (Elt F)) (x1 : (⟨S2x1600000, .i32⟩ : BufTy).Contents (Elt F))
  (x2 : (⟨S1600000, .f32⟩ : BufTy).Contents (Elt F)) (x3 : (⟨S128x64, .f32⟩ : BufTy).Contents (Elt F))
  (x4 : (⟨S64, .f32⟩ : BufTy).Contents (Elt F)) (x5 : (⟨S64x40, .f32⟩ : BufTy).Contents (Elt F)) (x6 : (⟨S40, .f32⟩ : BufTy).Contents (Elt F))

/-- The first matrix product. -/
theorem s1_v4 (h0 : U (Proc.devRef .tc main_arg0) = x0) (h3 : U (Proc.devRef .tc main_arg3) = x3) :
    after ops1 U (Proc.devRef .tc main_v4) = Cert.ReferenceIdeal.ReadP.val_main_v4 (F := F) x0 x3 := by
  dsimp only [ops1]
  host_read
  rw [h0, h3]
  rfl
/-- The source nodes with the self loops appended. -/
theorem s1_v6 (h1 : U (Proc.devRef .tc main_arg1) = x1) :
    after ops1 U (Proc.devRef .tc main_v6) = Cert.ReferenceIdeal.ReadP.val_main_v6 (F := F) x1 := by
  dsimp only [ops1]
  host_read
  rw [h1]
  rfl
/-- The destination nodes with the self loops appended. -/
theorem s1_v7 (h1 : U (Proc.devRef .tc main_arg1) = x1) :
    after ops1 U (Proc.devRef .tc main_v7) = Cert.ReferenceIdeal.ReadP.val_main_v7 (F := F) x1 := by
  dsimp only [ops1]
  host_read
  rw [h1]
  rfl
theorem s1_v1 (h1 : U (Proc.devRef .tc main_arg1) = x1) :
    after ops1 U (Proc.devRef .tc main_v1) = Cert.ReferenceIdeal.ReadP.val_main_v1 (F := F) x1 := by
  dsimp only [ops1]
  host_read
  rw [h1]
  rfl
theorem s1_v3 (h1 : U (Proc.devRef .tc main_arg1) = x1) :
    after ops1 U (Proc.devRef .tc main_v3) = Cert.ReferenceIdeal.ReadP.val_main_v3 (F := F) x1 := by
  dsimp only [ops1]
  host_read
  rw [h1]
  rfl
set_option maxHeartbeats 2000000 in
/-- The symmetric edge normalisation. -/
theorem s1_v32 (h1 : U (Proc.devRef .tc main_arg1) = x1) (h2 : U (Proc.devRef .tc main_arg2) = x2) :
    after ops1 U (Proc.devRef .tc main_v32) = Cert.ReferenceIdeal.ReadP.val_main_v32 (F := F) x1 x2 := by
  dsimp only [ops1]
  host_read
  rw [h1, h2]
  rfl
theorem s1_arg2 : after ops1 U (Proc.devRef .tc main_arg2) = U (Proc.devRef .tc main_arg2) := by
  dsimp only [ops1]
  host_read
theorem s1_arg4 : after ops1 U (Proc.devRef .tc main_arg4) = U (Proc.devRef .tc main_arg4) := by
  dsimp only [ops1]
  host_read
theorem s1_arg5 : after ops1 U (Proc.devRef .tc main_arg5) = U (Proc.devRef .tc main_arg5) := by
  dsimp only [ops1]
  host_read
theorem s1_arg6 : after ops1 U (Proc.devRef .tc main_arg6) = U (Proc.devRef .tc main_arg6) := by
  dsimp only [ops1]
  host_read

/-- The first layer's aggregation. -/
theorem s2_v45 (h4 : U (Proc.devRef .tc main_v4) = Cert.ReferenceIdeal.ReadP.val_main_v4 (F := F) x0 x3) (h6 : U (Proc.devRef .tc main_v6) = Cert.ReferenceIdeal.ReadP.val_main_v6 (F := F) x1) (h7 : U (Proc.devRef .tc main_v7) = Cert.ReferenceIdeal.ReadP.val_main_v7 (F := F) x1) (h32 : U (Proc.devRef .tc main_v32) = Cert.ReferenceIdeal.ReadP.val_main_v32 (F := F) x1 x2) :
    after ops2 U (Proc.devRef .tc main_v45) = Cert.ReferenceIdeal.ReadP.val_main_v45 (F := F) x0 x1 x2 x3 := by
  dsimp only [ops2]
  host_read
  rw [h4, h6, h7, h32]
  rfl
theorem s2_v1 : after ops2 U (Proc.devRef .tc main_v1) = U (Proc.devRef .tc main_v1) := by
  dsimp only [ops2]
  host_read
theorem s2_v3 : after ops2 U (Proc.devRef .tc main_v3) = U (Proc.devRef .tc main_v3) := by
  dsimp only [ops2]
  host_read
theorem s2_arg2 : after ops2 U (Proc.devRef .tc main_arg2) = U (Proc.devRef .tc main_arg2) := by
  dsimp only [ops2]
  host_read
theorem s2_arg4 : after ops2 U (Proc.devRef .tc main_arg4) = U (Proc.devRef .tc main_arg4) := by
  dsimp only [ops2]
  host_read
theorem s2_arg5 : after ops2 U (Proc.devRef .tc main_arg5) = U (Proc.devRef .tc main_arg5) := by
  dsimp only [ops2]
  host_read
theorem s2_arg6 : after ops2 U (Proc.devRef .tc main_arg6) = U (Proc.devRef .tc main_arg6) := by
  dsimp only [ops2]
  host_read

/-- The bias, the clamp and the second matrix product. -/
theorem s3_v50 (h45 : U (Proc.devRef .tc main_v45) = Cert.ReferenceIdeal.ReadP.val_main_v45 (F := F) x0 x1 x2 x3) (h4 : U (Proc.devRef .tc main_arg4) = x4) (h5 : U (Proc.devRef .tc main_arg5) = x5) :
    after ops3 U (Proc.devRef .tc main_v50) = Cert.ReferenceIdeal.ReadP.val_main_v50 (F := F) x0 x1 x2 x3 x4 x5 := by
  dsimp only [ops3]
  host_read
  rw [h45, h4, h5]
  rfl
theorem s3_v1 : after ops3 U (Proc.devRef .tc main_v1) = U (Proc.devRef .tc main_v1) := by
  dsimp only [ops3]
  host_read
theorem s3_v3 : after ops3 U (Proc.devRef .tc main_v3) = U (Proc.devRef .tc main_v3) := by
  dsimp only [ops3]
  host_read
theorem s3_arg2 : after ops3 U (Proc.devRef .tc main_arg2) = U (Proc.devRef .tc main_arg2) := by
  dsimp only [ops3]
  host_read
theorem s3_arg6 : after ops3 U (Proc.devRef .tc main_arg6) = U (Proc.devRef .tc main_arg6) := by
  dsimp only [ops3]
  host_read

theorem s4_v52 (h1 : U (Proc.devRef .tc main_v1) = Cert.ReferenceIdeal.ReadP.val_main_v1 (F := F) x1) :
    after ops4 U (Proc.devRef .tc main_v52) = Cert.ReferenceIdeal.ReadP.val_main_v52 (F := F) x1 := by
  dsimp only [ops4]
  host_read
  rw [h1]
  rfl
theorem s4_v53 (h3 : U (Proc.devRef .tc main_v3) = Cert.ReferenceIdeal.ReadP.val_main_v3 (F := F) x1) :
    after ops4 U (Proc.devRef .tc main_v53) = Cert.ReferenceIdeal.ReadP.val_main_v53 (F := F) x1 := by
  dsimp only [ops4]
  host_read
  rw [h3]
  rfl
set_option maxHeartbeats 2000000 in
/-- The edge normalisation, computed once more. -/
theorem s4_v78 (h1 : U (Proc.devRef .tc main_v1) = Cert.ReferenceIdeal.ReadP.val_main_v1 (F := F) x1) (h3 : U (Proc.devRef .tc main_v3) = Cert.ReferenceIdeal.ReadP.val_main_v3 (F := F) x1) (h2 : U (Proc.devRef .tc main_arg2) = x2) :
    after ops4 U (Proc.devRef .tc main_v78) = Cert.ReferenceIdeal.ReadP.val_main_v78 (F := F) x1 x2 := by
  dsimp only [ops4]
  host_read
  rw [h1, h3, h2]
  rfl
theorem s4_v50 : after ops4 U (Proc.devRef .tc main_v50) = U (Proc.devRef .tc main_v50) := by
  dsimp only [ops4]
  host_read
theorem s4_arg6 : after ops4 U (Proc.devRef .tc main_arg6) = U (Proc.devRef .tc main_arg6) := by
  dsimp only [ops4]
  host_read

/-- The second layer's aggregation. -/
theorem s5_v91 (h50 : U (Proc.devRef .tc main_v50) = Cert.ReferenceIdeal.ReadP.val_main_v50 (F := F) x0 x1 x2 x3 x4 x5) (h52 : U (Proc.devRef .tc main_v52) = Cert.ReferenceIdeal.ReadP.val_main_v52 (F := F) x1) (h53 : U (Proc.devRef .tc main_v53) = Cert.ReferenceIdeal.ReadP.val_main_v53 (F := F) x1) (h78 : U (Proc.devRef .tc main_v78) = Cert.ReferenceIdeal.ReadP.val_main_v78 (F := F) x1 x2) :
    after ops5 U (Proc.devRef .tc main_v91) = Cert.ReferenceIdeal.ReadP.val_main_v91 (F := F) x0 x1 x2 x3 x4 x5 := by
  dsimp only [ops5]
  host_read
  rw [h50, h52, h53, h78]
  rfl
theorem s5_arg6 : after ops5 U (Proc.devRef .tc main_arg6) = U (Proc.devRef .tc main_arg6) := by
  dsimp only [ops5]
  host_read

/-- The scores plus the bias. -/
theorem s6_v94 (h91 : U (Proc.devRef .tc main_v91) = Cert.ReferenceIdeal.ReadP.val_main_v91 (F := F) x0 x1 x2 x3 x4 x5) (h6 : U (Proc.devRef .tc main_arg6) = x6) :
    after ops6 U (Proc.devRef .tc main_v94) = Cert.ReferenceIdeal.ReadP.val_main_v94 (F := F) x0 x1 x2 x3 x4 x5 x6 := by
  dsimp only [ops6]
  host_read
  rw [h91, h6]
  rfl
/-- Each row's maximum. -/
theorem s6_m0 (h91 : U (Proc.devRef .tc main_v91) = Cert.ReferenceIdeal.ReadP.val_main_v91 (F := F) x0 x1 x2 x3 x4 x5) (h6 : U (Proc.devRef .tc main_arg6) = x6) :
    after ops6 U (Proc.devRef .tc main_call3_v0) = Cert.ReferenceIdeal.ReadP.val_main_call3_v0 (F := F) x0 x1 x2 x3 x4 x5 x6 := by
  dsimp only [ops6]
  host_read
  rw [h91, h6]
  rfl

/-- Each row's maximum laid over the row. -/
theorem s7_m4 (h0 : U (Proc.devRef .tc main_call3_v0) = Cert.ReferenceIdeal.ReadP.val_main_call3_v0 (F := F) x0 x1 x2 x3 x4 x5 x6) :
    after ops7 U (Proc.devRef .tc main_call3_v4) = Cert.ReferenceIdeal.ReadP.val_main_call3_v4 (F := F) x0 x1 x2 x3 x4 x5 x6 := by
  dsimp only [ops7]
  host_read
  rw [h0]
  rfl
theorem s7_v94 : after ops7 U (Proc.devRef .tc main_v94) = U (Proc.devRef .tc main_v94) := by
  dsimp only [ops7]
  host_read

/-- Each entry minus its row's maximum. -/
theorem s8_z (h94 : U (Proc.devRef .tc main_v94) = Cert.ReferenceIdeal.ReadP.val_main_v94 (F := F) x0 x1 x2 x3 x4 x5 x6) (h4 : U (Proc.devRef .tc main_call3_v4) = Cert.ReferenceIdeal.ReadP.val_main_call3_v4 (F := F) x0 x1 x2 x3 x4 x5 x6) :
    after ops8 U (Proc.devRef .tc main_call3_v5) = Cert.ReferenceIdeal.ReadP.val_main_call3_v5 (F := F) x0 x1 x2 x3 x4 x5 x6 := by
  dsimp only [ops8]
  host_read
  rw [h94, h4]
  rfl
/-- Each row's sum of exponentials. -/
theorem s8_s (h94 : U (Proc.devRef .tc main_v94) = Cert.ReferenceIdeal.ReadP.val_main_v94 (F := F) x0 x1 x2 x3 x4 x5 x6) (h4 : U (Proc.devRef .tc main_call3_v4) = Cert.ReferenceIdeal.ReadP.val_main_call3_v4 (F := F) x0 x1 x2 x3 x4 x5 x6) :
    after ops8 U (Proc.devRef .tc main_call3_v7) = Cert.ReferenceIdeal.ReadP.val_main_call3_v7 (F := F) x0 x1 x2 x3 x4 x5 x6 := by
  dsimp only [ops8]
  host_read
  rw [h94, h4]
  rfl

/-- The log-softmax. -/
theorem s9_v95 (h5 : U (Proc.devRef .tc main_call3_v5) = Cert.ReferenceIdeal.ReadP.val_main_call3_v5 (F := F) x0 x1 x2 x3 x4 x5 x6) (h7 : U (Proc.devRef .tc main_call3_v7) = Cert.ReferenceIdeal.ReadP.val_main_call3_v7 (F := F) x0 x1 x2 x3 x4 x5 x6) :
    after ops9 U (Proc.devRef .tc main_v95) = Cert.ReferenceIdeal.ReadP.val_main_v95 (F := F) x0 x1 x2 x3 x4 x5 x6 := by
  dsimp only [ops9]
  host_read
  rw [h5, h7]
  rfl

end

/-! ## The run -/

/-- After all 138 operations the result buffer holds the last stage of the argument arrays. -/
theorem after_ops_v95 (U : Valuation τ sig (Elt F)) :
    after ops U (Proc.devRef .tc main_v95)
      = Cert.ReferenceIdeal.ReadP.val_main_v95 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) := by
  rw [ops_eq, StableHlo.after_append, StableHlo.after_append, StableHlo.after_append, StableHlo.after_append, StableHlo.after_append,
    StableHlo.after_append, StableHlo.after_append, StableHlo.after_append]
  have h50 := s3_v50 (after ops2 (after ops1 U)) _ _ _ _ _ _ (s2_v45 (after ops1 U) _ _ _ _ (s1_v4 U _ _ rfl rfl) (s1_v6 U _ rfl) (s1_v7 U _ rfl) (s1_v32 U _ _ rfl rfl))
    ((s2_arg4 _).trans (s1_arg4 U)) ((s2_arg5 _).trans (s1_arg5 U))
  have h1 := (s3_v1 (after ops2 (after ops1 U))).trans ((s2_v1 (after ops1 U)).trans (s1_v1 U _ rfl))
  have h3 := (s3_v3 (after ops2 (after ops1 U))).trans ((s2_v3 (after ops1 U)).trans (s1_v3 U _ rfl))
  have h2 := (s3_arg2 (after ops2 (after ops1 U))).trans ((s2_arg2 (after ops1 U)).trans (s1_arg2 U))
  have h6 := (s5_arg6 (after ops4 (after ops3 (after ops2 (after ops1 U))))).trans ((s4_arg6 _).trans ((s3_arg6 _).trans ((s2_arg6 _).trans (s1_arg6 U))))
  have h91 := s5_v91 (after ops4 (after ops3 (after ops2 (after ops1 U)))) _ _ _ _ _ _ ((s4_v50 _).trans h50) (s4_v52 _ _ h1) (s4_v53 _ _ h3) (s4_v78 _ _ _ h1 h3 h2)
  have h94 := s6_v94 _ _ _ _ _ _ _ _ h91 h6
  have hm0 := s6_m0 _ _ _ _ _ _ _ _ h91 h6
  have hm4 := s7_m4 _ _ _ _ _ _ _ _ hm0
  have h94' := (s7_v94 _).trans h94
  exact s9_v95 _ _ _ _ _ _ _ _ (s8_z _ _ _ _ _ _ _ _ h94' hm4) (s8_s _ _ _ _ _ _ _ _ h94' hm4)

set_option maxRecDepth 8192 in
set_option maxHeartbeats 55200000 in
/-- On every device, from any memory with zero counters: every weakly fair execution of @main terminates with the
    result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Cert.ReferenceIdeal.ReadP.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v95).trans (after_ops_v95 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Stages

end
-- ==== Proof.Region0.lean ====
/-
  The first region: each grid point multiplies a block of 5000 rows of the node features by the whole
  128 × 64 weight matrix and writes the product back as the same 5000 rows of the result. Row r of a block at
  point t is row 5000·t + r of the array, and an entry of a matrix product depends only on its own row of the
  left factor, so the twenty blocks together are the product of the whole feature array with the weights: at
  (i, q) both are the sum over k of x(i, k) · W(k, q).
-/
import proofs.«156127_j30039001269040_1_alg».proof.Proof.Gen.KernelIdeal.Frame
import proofs.«156127_j30039001269040_1_alg».proof.Proof.RefRead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `j 0`, column `k` of a block of features. -/
abbrev rowIdx (j : S5000x64.Idx) (k : Fin 128) : S5000x128.Idx := fun a => match a with
  | ⟨0, _⟩ => ⟨(j 0).val, (j 0).isLt⟩
  | ⟨1, _⟩ => ⟨k.val, k.isLt⟩
/-- Row `k`, column `j 1` of the weights. -/
abbrev colIdx (j : S5000x64.Idx) (k : Fin 128) : S128x64.Idx := fun a => match a with
  | ⟨0, _⟩ => ⟨k.val, k.isLt⟩
  | ⟨1, _⟩ => ⟨(j 1).val, (j 1).isLt⟩

/-- The stored value at an entry: the sum over the contracted axis of the row of the block times the column of the weights. -/
theorem pay_apply (x : Vec Ideal S5000x128 .f32) (w : Vec Ideal S128x64 .f32) (j : S5000x64.Idx) :
    k0_pay1 (F := Ideal) x w j = ∑ k : Fin 128, x (rowIdx j k) * w (colIdx j k) := by
  unfold k0_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowIdx j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = colIdx j k := funext fun a => Fin.ext (by
    match a with
    | ⟨0, _⟩ => exact (rhs_0 _ _).trans hk
    | ⟨1, _⟩ => exact rhs_1 _ _)
  rw [el, er]

/-! ## From the blocks to the array -/

/-- The product of the whole feature array with the weights, as the region finds them. -/
def G (c : Dev nD) : Buf (Elt Ideal) ((c : Thread nD τ).loc main_v32) :=
  Cert.ReferenceIdeal.ReadP.val_main_v4 (F := Ideal) (V c main_arg0) (V c main_arg3)

/-- The index maps over the grid: point `t` takes block row `t` of the features and of the result, and the one block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  refine (pay_apply (iblk0 V c 0 t) (iblk0 V c 1 t) j).trans ?_
  show _ = Cert.ReferenceIdeal.ReadP.val_main_v4 (F := Ideal) (V c main_arg0) (V c main_arg3) (((cfg0.win 2).blk t).view.emb j)
  rw [Cert.ReferenceIdeal.ReadP.val_main_v4_apply]
  refine Finset.sum_congr rfl fun k _ => ?_
  have h0 : (iblk0 V c 0 t : Vec Ideal S5000x128 .f32) (rowIdx j k) = V c main_arg0 (Cert.ReferenceIdeal.ReadP.lidx_main_v4 (((cfg0.win 2).blk t).view.emb j) k) := by
    unfold iblk0
    rw [View.read_apply]
    show V c main_arg0 (((cfg0.win 0).blk t).view.emb (rowIdx j k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : (iblk0 V c 1 t : Vec Ideal S128x64 .f32) (colIdx j k) = V c main_arg3 (Cert.ReferenceIdeal.ReadP.ridx_main_v4 (((cfg0.win 2).blk t).view.emb j) k) := by
    unfold iblk0
    rw [View.read_apply]
    show V c main_arg3 (((cfg0.win 1).blk t).view.emb (colIdx j k)) = _
    congr 1
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row of the result lies in the block of the point `row / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region is the whole product. -/
theorem final (c : Dev nD) : (dat0 V c).arrAt 2 cfg0.N = G V c :=
  (dat0 V c).arrAt_eq_of_cover 2 (G V c) (fun t _ => flushed_eq V c t) (cover)

end Cert.KernelIdeal.Region0

end
-- ==== Proof.Region1.lean ====
/-
  The second region: each grid point takes a block of 5000 rows of the aggregated layer-one features, adds the
  bias row to every row, clamps at zero from below and multiplies by the whole 64 × 40 weight matrix; the
  product goes back as the same 5000 rows of the result. Bias, clamp and product act within a row, and row r
  of a block at point t is row 5000·t + r of the array, so the twenty blocks together are the same three steps
  applied to the whole array: at (i, q) both are the sum over k of max(a(i, k) + b(k), 0) · W(k, q).
-/
import proofs.«156127_j30039001269040_1_alg».proof.Proof.Gen.KernelIdeal.Frame
import proofs.«156127_j30039001269040_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The block product at an entry -/

theorem lhs_0 (j : S5000x40.Idx) (q : dot_S5000x64_S64x40_S5000x40_1_0_0_1_n_n.contr.Idx) :
    (dot_S5000x64_S64x40_S5000x40_1_0_0_1_n_n.lhsIdx j q 0).val = (j 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem lhs_1 (j : S5000x40.Idx) (q : dot_S5000x64_S64x40_S5000x40_1_0_0_1_n_n.contr.Idx) :
    (dot_S5000x64_S64x40_S5000x40_1_0_0_1_n_n.lhsIdx j q 1).val = (q ⟨0, by decide⟩).val :=
  dot_S5000x64_S64x40_S5000x40_1_0_0_1_n_n.lhsIdx_val_of_single rfl j q
theorem rhs_0 (j : S5000x40.Idx) (q : dot_S5000x64_S64x40_S5000x40_1_0_0_1_n_n.contr.Idx) :
    (dot_S5000x64_S64x40_S5000x40_1_0_0_1_n_n.rhsIdx j q 0).val = (q ⟨0, by decide⟩).val :=
  dot_S5000x64_S64x40_S5000x40_1_0_0_1_n_n.rhsIdx_val_of_single rfl j q
theorem rhs_1 (j : S5000x40.Idx) (q : dot_S5000x64_S64x40_S5000x40_1_0_0_1_n_n.contr.Idx) :
    (dot_S5000x64_S64x40_S5000x40_1_0_0_1_n_n.rhsIdx j q 1).val = (j 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- Row `j 0`, column `k` of a block of aggregated features. -/
abbrev rowIdx (j : S5000x40.Idx) (k : Fin 64) : S5000x64.Idx :=
  ix2 (⟨(j 0).val, (j 0).isLt⟩ : Fin 5000) k
/-- Row `k`, column `j 1` of the weights. -/
abbrev colIdx (j : S5000x40.Idx) (k : Fin 64) : S64x40.Idx :=
  ix2 k (⟨(j 1).val, (j 1).isLt⟩ : Fin 40)

/-- The bias row laid over a block reads, at row p and column k, the bias at k. -/
theorem bias_apply (b : Vec Ideal S64 .f32) (p : Fin 5000) (k : Fin 64) :
    broadcastTo S5000x64 (shapeCast S1x64 b shapeCasts_S64_S1x64) broadcasts_S1x64_S5000x64 (ix2 p k) = b (ix1 k) :=
  (broadcastTo_1b_ab_apply (shapeCast S1x64 b shapeCasts_S64_S1x64) broadcasts_S1x64_S5000x64 p k).trans
    (shapeCast_a_1a_apply b shapeCasts_S64_S1x64 (0 : Fin 1) k)

/-- One entry of the layer: the sum over k of the clamped, biased feature times the weight. -/
def cell (a b w : Fin 64 → Ideal .f32) : Ideal .f32 :=
  ∑ k : Fin 64, FloatOps.maximumf (F := Ideal) (FloatOps.addf (F := Ideal) (a k) (b k)) (FloatOps.ofBits (F := Ideal) .f32 0x00000000#32) * w k

theorem cell_congr {a a' b b' w w' : Fin 64 → Ideal .f32} (ha : ∀ k, a k = a' k) (hb : ∀ k, b k = b' k) (hw : ∀ k, w k = w' k) :
    cell a b w = cell a' b' w' := by
  rw [funext ha, funext hb, funext hw]

/-- The stored value at an entry is that sum over the row of the block, the bias and the column of the weights. -/
theorem pay_apply (x : Vec Ideal S5000x64 .f32) (b : Vec Ideal S64 .f32) (w : Vec Ideal S64x40 .f32) (j : S5000x40.Idx) :
    k1_pay1 (F := Ideal) x b w j = cell (fun k => x (rowIdx j k)) (fun k => b (ix1 k)) (fun k => w (colIdx j k)) := by
  unfold k1_pay1 cell
  simp only [matmul]
  rw [Ideal.matmul_constant_zero_apply, ← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx j ((ValueIdx.contrEquiv1 dot_S5000x64_S64x40_S5000x40_1_0_0_1_n_n 64 rfl rfl).symm k) = rowIdx j k := funext fun a => Fin.ext (by
    match a with
    | ⟨0, _⟩ => exact lhs_0 _ _
    | ⟨1, _⟩ => exact (lhs_1 _ _).trans hk)
  have er : dot_S5000x64_S64x40_S5000x40_1_0_0_1_n_n.rhsIdx j ((ValueIdx.contrEquiv1 dot_S5000x64_S64x40_S5000x40_1_0_0_1_n_n 64 rfl rfl).symm k) = colIdx j k := funext fun a => Fin.ext (by
    match a with
    | ⟨0, _⟩ => exact (rhs_0 _ _).trans hk
    | ⟨1, _⟩ => exact rhs_1 _ _)
  rw [el, er, shapeCast_self]
  show FloatOps.maximumf (F := Ideal) (FloatOps.addf (F := Ideal) (x (rowIdx j k)) (broadcastTo S5000x64 (shapeCast S1x64 b shapeCasts_S64_S1x64) broadcasts_S1x64_S5000x64 (rowIdx j k))) (FloatOps.ofBits (F := Ideal) .f32 0x00000000#32) * w (colIdx j k) = _
  rw [bias_apply]

/-! ## From the blocks to the array -/

/-- The index maps over the grid: point `t` takes block row `t` of the aggregated features and of the result,
    and the one block of the bias and of the weights. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three input blocks at a point, at their literal types. -/
abbrev xblk (c : Dev nD) (t : Fin cfg1.N) : Vec Ideal S5000x64 .f32 := iblk1 V c 0 t
abbrev bblk (c : Dev nD) (t : Fin cfg1.N) : Vec Ideal S64 .f32 := iblk1 V c 1 t
abbrev wblk (c : Dev nD) (t : Fin cfg1.N) : Vec Ideal S64x40 .f32 := iblk1 V c 2 t

/-- Row y₀ of the block of aggregated features at point `t` is row 5000·t + y₀ of the array. -/
theorem xblk_apply (c : Dev nD) (t : Fin cfg1.N) (y : S5000x64.Idx) (i : S100000x64.Idx)
    (h0 : (i 0).val = 5000 * t.val + (y 0).val) (h1 : (i 1).val = (y 1).val) :
    xblk V c t y = (V c main_v45 : Vec Ideal S100000x64 .f32) i := by
  obtain ⟨e0, e1, e2, e3, e4, e5, e6⟩ := idx_facts t
  show iblk1 V c 0 t y = _
  unfold iblk1
  rw [View.read_apply]
  show V c main_v45 (((cfg1.win 0).blk t).view.emb y) = V c main_v45 i
  congr 1
  funext a; apply Fin.ext
  match a with
  | ⟨0, _⟩ => show win1_0.index t (0 : Fin 2) * 5000 + 1 * (y 0).val = (i 0).val; omega
  | ⟨1, _⟩ => show win1_0.index t (1 : Fin 2) * 64 + 1 * (y 1).val = (i 1).val; omega
/-- The one block of the bias is the bias. -/
theorem bblk_apply (c : Dev nD) (t : Fin cfg1.N) (y : S64.Idx) :
    bblk V c t y = (V c main_arg4 : Vec Ideal S64 .f32) y := by
  obtain ⟨e0, e1, e2, e3, e4, e5, e6⟩ := idx_facts t
  show iblk1 V c 1 t y = _
  unfold iblk1
  rw [View.read_apply]
  show V c main_arg4 (((cfg1.win 1).blk t).view.emb y) = V c main_arg4 y
  congr 1
  funext a; apply Fin.ext
  match a with
  | ⟨0, _⟩ => show win1_1.index t (0 : Fin 1) * 64 + 1 * (y 0).val = (y 0).val; omega
/-- The one block of the weights is the weights. -/
theorem wblk_apply (c : Dev nD) (t : Fin cfg1.N) (y : S64x40.Idx) :
    wblk V c t y = (V c main_arg5 : Vec Ideal S64x40 .f32) y := by
  obtain ⟨e0, e1, e2, e3, e4, e5, e6⟩ := idx_facts t
  show iblk1 V c 2 t y = _
  unfold iblk1
  rw [View.read_apply]
  show V c main_arg5 (((cfg1.win 2).blk t).view.emb y) = V c main_arg5 y
  congr 1
  funext a; apply Fin.ext
  match a with
  | ⟨0, _⟩ => show win1_2.index t (0 : Fin 2) * 64 + 1 * (y 0).val = (y 0).val; omega
  | ⟨1, _⟩ => show win1_2.index t (1 : Fin 2) * 40 + 1 * (y 1).val = (y 1).val; omega

section
variable (c : Dev nD)
  (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S1600000, .f32⟩ : BufTy).Contents (Elt Ideal)) (x3 : (⟨Cert.ReferenceIdeal.S128x64, .f32⟩ : BufTy).Contents (Elt Ideal))

/-- Clamped, biased layer-one features times the layer-two weights, over the whole array as the region finds it. -/
def G : Buf (Elt Ideal) ((c : Thread nD τ).loc main_v46) :=
  Cert.ReferenceIdeal.ReadP.val_main_v50 (F := Ideal) x0 x1 x2 x3 (V c main_arg4) (V c main_arg5)

/-- The whole array's result at an entry is the same sum over the row of the aggregated features, the bias and
    the column of the weights. -/
theorem ref_apply (x4 : (⟨Cert.ReferenceIdeal.S64, .f32⟩ : BufTy).Contents (Elt Ideal)) (x5 : (⟨Cert.ReferenceIdeal.S64x40, .f32⟩ : BufTy).Contents (Elt Ideal))
    (i : Cert.ReferenceIdeal.S100000x40.Idx) :
    Cert.ReferenceIdeal.ReadP.val_main_v50 (F := Ideal) x0 x1 x2 x3 x4 x5 i
      = cell (fun k => Cert.ReferenceIdeal.ReadP.val_main_v45 (F := Ideal) x0 x1 x2 x3 (Cert.ReferenceIdeal.ReadP.lidx_main_v50 i k)) (fun k => x4 (ix1 k)) (fun k => x5 (Cert.ReferenceIdeal.ReadP.ridx_main_v50 i k)) := by
  rw [Cert.ReferenceIdeal.ReadP.val_main_v50_apply]
  unfold cell
  refine Finset.sum_congr rfl fun k _ => ?_
  rw [Cert.ReferenceIdeal.ReadP.val_main_v49_apply, Cert.ReferenceIdeal.ReadP.val_main_v48_apply, Cert.ReferenceIdeal.ReadP.val_main_v47_apply, Cert.ReferenceIdeal.ReadP.val_main_v46_apply,
    Cert.ReferenceIdeal.ReadP.val_main_call1_v0_apply, Cert.ReferenceIdeal.ReadP.val_main_call1_cst_apply]
  have e : Cert.ReferenceIdeal.ReadP.idx_main_v46 (Cert.ReferenceIdeal.ReadP.idx_main_v47 (Cert.ReferenceIdeal.ReadP.lidx_main_v50 i k)) = ix1 k :=
    funext fun a => Fin.ext (by match a with | ⟨0, _⟩ => rfl)
  rw [e]

/-- What point `t` writes back is block `t` of the whole array's result, when the region finds the aggregated
    features in its first operand. -/
theorem flushed_eq (h45 : V c main_v45 = Cert.ReferenceIdeal.ReadP.val_main_v45 (F := Ideal) x0 x1 x2 x3) (t : Fin cfg1.N) :
    (dat1 V c).flushed 3 t = ((cfg1.win 3).blk t).view.read (Elt Ideal) (G V c x0 x1 x2 x3) := by
  show (cfg1.win 3).cut (grid1.coords t) ((dat1 V c).after 3 t) = _
  rw [after1_3]
  unfold out1_3
  rw [View.canon_unit_zero hz]
  simp only [View.ld_unit_zero (S := S5000x64) hz, View.ld_unit_zero (S := S64) hz1, View.ld_unit_zero (S := S64x40) hz]
  obtain ⟨e0, e1, e2, e3, e4, e5, e6⟩ := idx_facts t
  funext j
  refine (pay_apply (xblk V c t) (bblk V c t) (wblk V c t) j).trans ?_
  rw [View.read_apply]
  refine Eq.trans ?_ (cast_eq _ _).symm
  unfold G
  rw [ref_apply]
  have hN : cfg1.N = 20 := N_1
  have htl : t.val < 20 := hN ▸ t.isLt
  refine cell_congr (fun k => ?_) (fun k => ?_) (fun k => ?_)
  · refine (xblk_apply V c t (rowIdx j k) (Cert.ReferenceIdeal.ReadP.lidx_main_v50 (((cfg1.win 3).blk t).view.emb j) k) ?_ rfl).trans ?_
    · show win1_3.index t (0 : Fin 2) * 5000 + 1 * (j 0).val = 5000 * t.val + (j 0).val; omega
    · rw [h45]
  · exact bblk_apply V c t (ix1 k)
  · refine (wblk_apply V c t (colIdx j k)).trans ?_
    show V c main_arg5 (colIdx j k) = V c main_arg5 (Cert.ReferenceIdeal.ReadP.ridx_main_v50 (((cfg1.win 3).blk t).view.emb j) k)
    congr 1
    funext a; apply Fin.ext
    match a with
    | ⟨0, _⟩ => rfl
    | ⟨1, _⟩ => show (j 1).val = win1_3.index t (1 : Fin 2) * 40 + 1 * (j 1).val; omega

/-- An index of the result is in point `t`'s block iff each coordinate is in the block's range on its axis. -/
theorem mem_blk (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v46).slice (win1_3.rect t)).set ↔ _
  rw [View.set_slice_whole, Rect.mem_set_unit]
  exact Iff.rfl

/-- Every row of the result lies in the block of the point `row / 5000`. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 20 := N_1
  let t : Fin cfg1.N := ⟨(i 0).val / 5000, by rw [hN]; omega⟩
  obtain ⟨e0, e1, e2, e3, e4, e5, e6⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

/-- The result array after the region. -/
theorem final (h45 : V c main_v45 = Cert.ReferenceIdeal.ReadP.val_main_v45 (F := Ideal) x0 x1 x2 x3) :
    (dat1 V c).arrAt 3 cfg1.N = G V c x0 x1 x2 x3 :=
  (dat1 V c).arrAt_eq_of_cover 3 (G V c x0 x1 x2 x3) (fun t _ => flushed_eq V c x0 x1 x2 x3 h45 t) cover

end

end Cert.KernelIdeal.Region1

end
-- ==== Proof.Region2.lean ====
/-
  The third region: each grid point takes a block of 5000 rows of the aggregated layer-two scores, adds the
  bias row to every row and takes the log-softmax of every row: the row minus its maximum, minus the logarithm
  of the sum of the exponentials of those differences. Every step acts within a row, and row r of a block at
  point t is row 5000·t + r of the array, so the twenty blocks together are the log-softmax of the rows of
  the whole array plus the bias. The host's form differs in two places that change nothing on the extended
  reals: it takes the maximum once more against −∞, and its sum starts from an explicit zero.
-/
import proofs.«156127_j30039001269040_1_alg».proof.Proof.Gen.KernelIdeal.Frame
import proofs.«156127_j30039001269040_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The log-softmax of one row -/

/-- The largest entry of a row of forty scores (−∞ is the maximum of nothing). -/
def rowMax (y : Fin 40 → Ideal .f32) : Ideal .f32 :=
  (Finset.univ : Finset (Fin 40)).fold (FloatOps.maximumf (F := Ideal) (φ := .f32)) (FloatOps.ofBits (F := Ideal) .f32 0xFF800000#32) y

/-- The log-softmax of a row of forty scores at column `q`. -/
def rowLsm (y : Fin 40 → Ideal .f32) (q : Fin 40) : Ideal .f32 :=
  (y q - rowMax y) - Ideal.log (∑ k : Fin 40, Ideal.exp (y k - rowMax y))

/-! ## The kernel's stored value, step by step -/

section Payload
variable (x : Vec Ideal S5000x40 .f32) (b : Vec Ideal S40 .f32)

/-- The block plus the bias row. -/
def yv : FVec Ideal S5000x40 .f32 :=
  addf (shapeCast S5000x40 x shapeCasts_S5000x40_S5000x40) (broadcastTo S5000x40 (shapeCast S1x40 b shapeCasts_S40_S1x40) broadcasts_S1x40_S5000x40)
/-- Each row's maximum. -/
def mv : FVec Ideal S5000 .f32 :=
  multiReduction .maximumf [1] S5000 (yv x b) 0xFF800000#32 reduces_S5000x40_S5000 (.inl rfl) rfl
/-- Each entry minus its row's maximum. -/
def zv : FVec Ideal S5000x40 .f32 :=
  subf (yv x b) (broadcastTo S5000x40 (shapeCast S5000x1 (mv x b) shapeCasts_S5000_S5000x1) broadcasts_S5000x1_S5000x40)
/-- Each row's sum of exponentials. -/
def sv : FVec Ideal S5000 .f32 :=
  multiReduction .add [1] S5000 (exp (zv x b)) 0x00000000#32 reduces_S5000x40_S5000 (.inl rfl) rfl

theorem pay_unfold : k2_pay1 (F := Ideal) x b
    = subf (zv x b) (broadcastTo S5000x40 (log (shapeCast S5000x1 (sv x b) shapeCasts_S5000_S5000x1)) broadcasts_S5000x1_S5000x40) := rfl

/-- The bias row laid over a block reads, at row p and column k, the bias at k. -/
theorem bias_apply (p : Fin 5000) (k : Fin 40) :
    broadcastTo S5000x40 (shapeCast S1x40 b shapeCasts_S40_S1x40) broadcasts_S1x40_S5000x40 (ix2 p k) = b (ix1 k) :=
  (broadcastTo_1b_ab_apply (shapeCast S1x40 b shapeCasts_S40_S1x40) broadcasts_S1x40_S5000x40 p k).trans
    (shapeCast_a_1a_apply b shapeCasts_S40_S1x40 (0 : Fin 1) k)

theorem yv_apply (p : Fin 5000) (k : Fin 40) : yv x b (ix2 p k) = x (ix2 p k) + b (ix1 k) := by
  unfold yv
  rw [shapeCast_self]
  show x (ix2 p k) + broadcastTo S5000x40 (shapeCast S1x40 b shapeCasts_S40_S1x40) broadcasts_S1x40_S5000x40 (ix2 p k) = _
  rw [bias_apply]

/-- A column of per-row values laid over the block's forty columns reads, at row p, the value of row p. -/
theorem col_apply (v : FVec Ideal S5000x1 .f32) (p : Fin 5000) (q : Fin 40) :
    broadcastTo S5000x40 v broadcasts_S5000x1_S5000x40 (ix2 p q) = v (ix2 p (0 : Fin 1)) := by
  refine broadcastTo_apply v broadcasts_S5000x1_S5000x40 (ix2 p q) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else q.val; rw [if_pos rfl]

/-- Per-row values cast to a column read, at row p, the value of row p. -/
theorem cast_apply (v : FVec Ideal S5000 .f32) (p : Fin 5000) :
    shapeCast S5000x1 v shapeCasts_S5000_S5000x1 (ix2 p (0 : Fin 1)) = v (ix1 p) :=
  shapeCast_apply v shapeCasts_S5000_S5000x1 _ _ (by
    rw [Shape.rowMajor_val_two, Shape.rowMajor_val_one]
    show p.val = p.val * 1 + 0
    omega)

theorem lift_eq (p : Fin 5000) (k : Fin 40) :
    (reduces_S5000x40_S5000 : S5000x40.Reduces [1] S5000).lift (ix1 p) k = ix2 p k :=
  funext fun a => Fin.ext (by match a with | ⟨0, _⟩ => rfl | ⟨1, _⟩ => rfl)

theorem mv_apply (p : Fin 5000) : mv x b (ix1 p) = rowMax (fun k => x (ix2 p k) + b (ix1 k)) := by
  unfold mv
  refine (Ideal.multiReduction_maximumf_single (yv x b) 0xFF800000#32 reduces_S5000x40_S5000 (.inl rfl) rfl (ix1 p)).trans ?_
  unfold rowMax
  refine congrArg (fun f => (Finset.univ : Finset (Fin 40)).fold (FloatOps.maximumf (F := Ideal) (φ := .f32)) (FloatOps.ofBits (F := Ideal) .f32 0xFF800000#32) f) (funext fun k => ?_)
  show yv x b ((reduces_S5000x40_S5000 : S5000x40.Reduces [1] S5000).lift (ix1 p) k) = _
  exact (congrArg (yv x b) (lift_eq p k)).trans (yv_apply x b p k)

theorem zv_apply (p : Fin 5000) (k : Fin 40) :
    zv x b (ix2 p k) = (x (ix2 p k) + b (ix1 k)) - rowMax (fun k => x (ix2 p k) + b (ix1 k)) := by
  unfold zv
  show yv x b (ix2 p k) - broadcastTo S5000x40 (shapeCast S5000x1 (mv x b) shapeCasts_S5000_S5000x1) broadcasts_S5000x1_S5000x40 (ix2 p k) = _
  rw [col_apply, cast_apply, mv_apply, yv_apply]

theorem sv_apply (p : Fin 5000) :
    sv x b (ix1 p) = ∑ k : Fin 40, Ideal.exp ((x (ix2 p k) + b (ix1 k)) - rowMax (fun k => x (ix2 p k) + b (ix1 k))) := by
  unfold sv
  refine (Ideal.multiReduction_add_single (exp (zv x b)) 0x00000000#32 reduces_S5000x40_S5000 (.inl rfl) rfl (ix1 p)).trans ?_
  refine Finset.sum_congr rfl fun k _ => ?_
  show Ideal.exp (zv x b ((reduces_S5000x40_S5000 : S5000x40.Reduces [1] S5000).lift (ix1 p) k)) = _
  exact congrArg Ideal.exp ((congrArg (zv x b) (lift_eq p k)).trans (zv_apply x b p k))

/-- The stored value at row p, column q of a block: the log-softmax of the block's row p plus the bias. -/
theorem pay_apply (p : Fin 5000) (q : Fin 40) :
    k2_pay1 (F := Ideal) x b (ix2 p q) = rowLsm (fun k => x (ix2 p k) + b (ix1 k)) q := by
  rw [pay_unfold]
  show zv x b (ix2 p q) - broadcastTo S5000x40 (log (shapeCast S5000x1 (sv x b) shapeCasts_S5000_S5000x1)) broadcasts_S5000x1_S5000x40 (ix2 p q) = _
  rw [col_apply]
  show zv x b (ix2 p q) - Ideal.log (shapeCast S5000x1 (sv x b) shapeCasts_S5000_S5000x1 (ix2 p (0 : Fin 1))) = _
  rw [cast_apply, sv_apply, zv_apply]
  rfl

end Payload

/-! ## The host's log-softmax at an entry -/

section
variable (c : Dev nD)
  (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S1600000, .f32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x40, .f32⟩ : BufTy).Contents (Elt Ideal))
  (x6 : (⟨Cert.ReferenceIdeal.S40, .f32⟩ : BufTy).Contents (Elt Ideal))

/-- Row `r`, column `k` of the whole array. -/
abbrev at2 (r : Fin 100000) (k : Fin 40) : Cert.ReferenceIdeal.S100000x40.Idx := ix2 r k

/-- The biased scores of row `r` of the whole array. -/
def refRow (r : Fin 100000) : Fin 40 → Ideal .f32 :=
  fun k => Cert.ReferenceIdeal.ReadP.val_main_v91 (F := Ideal) x0 x1 x2 x3 x4 x5 (at2 r k) + x6 (ix1 k)

theorem v94_at (r : Fin 100000) (k : Fin 40) :
    Cert.ReferenceIdeal.ReadP.val_main_v94 (F := Ideal) x0 x1 x2 x3 x4 x5 x6 (at2 r k) = refRow x0 x1 x2 x3 x4 x5 x6 r k := by
  rw [Cert.ReferenceIdeal.ReadP.val_main_v94_apply, Cert.ReferenceIdeal.ReadP.val_main_v93_apply, Cert.ReferenceIdeal.ReadP.val_main_v92_apply]
  unfold refRow
  show _ + x6 _ = _ + x6 _
  congr 2
  funext a; apply Fin.ext
  match a with
  | ⟨0, _⟩ => rfl

theorem rlift_eq (r : Fin 100000) (k : Fin 40) :
    (by decide : Cert.ReferenceIdeal.S100000x40.Reduces [1] Cert.ReferenceIdeal.S100000).lift (ix1 r) k = at2 r k :=
  funext fun a => Fin.ext (by match a with | ⟨0, _⟩ => rfl | ⟨1, _⟩ => rfl)

/-- The maximum against −∞ is the other operand. -/
theorem max_negInf (x : Ideal .f32) : FloatOps.maximumf (F := Ideal) (FloatOps.ofBits (F := Ideal) .f32 0xFF800000#32) x = x := by
  show max (Ideal.ofBits .f32 0xFF800000#32) x = x
  simp [Ideal.ofBits, Ideal.ieee]

/-- The host's row maximum, taken once more against −∞, is the row's maximum. -/
theorem v2_at (r : Fin 100000) :
    Cert.ReferenceIdeal.ReadP.val_main_call3_v2 (F := Ideal) x0 x1 x2 x3 x4 x5 x6 (ix1 r) = rowMax (refRow x0 x1 x2 x3 x4 x5 x6 r) := by
  rw [Cert.ReferenceIdeal.ReadP.val_main_call3_v2_apply, Cert.ReferenceIdeal.ReadP.val_main_call3_v1_apply, Cert.ReferenceIdeal.ReadP.val_main_call3_cst_0_apply, max_negInf]
  unfold Cert.ReferenceIdeal.ReadP.val_main_call3_v0
  refine (Host.reduce_eq_fold_single (FloatOps.maximumf (F := Ideal) (φ := .f32)) (Cert.ReferenceIdeal.ReadP.val_main_v94 (F := Ideal) x0 x1 x2 x3 x4 x5 x6) (Cert.ReferenceIdeal.ReadP.val_main_call3_cst (F := Ideal))
    Cert.ReferenceIdeal.Gen.reducesTo_S100000x40_S100000_d1 (by decide) Cert.ReferenceIdeal.Gen.h_S_ (ix1 r)).trans ?_
  rw [Cert.ReferenceIdeal.ReadP.val_main_call3_cst_apply]
  unfold rowMax
  refine congrArg (fun f => (Finset.univ : Finset (Fin 40)).fold (FloatOps.maximumf (F := Ideal) (φ := .f32)) (FloatOps.ofBits (F := Ideal) .f32 0xFF800000#32) f) (funext fun k => ?_)
  rw [Function.comp_apply]
  exact (congrArg (Cert.ReferenceIdeal.ReadP.val_main_v94 (F := Ideal) x0 x1 x2 x3 x4 x5 x6) (rlift_eq r k)).trans (v94_at x0 x1 x2 x3 x4 x5 x6 r k)

theorem v5_at (r : Fin 100000) (k : Fin 40) :
    Cert.ReferenceIdeal.ReadP.val_main_call3_v5 (F := Ideal) x0 x1 x2 x3 x4 x5 x6 (at2 r k) = refRow x0 x1 x2 x3 x4 x5 x6 r k - rowMax (refRow x0 x1 x2 x3 x4 x5 x6 r) := by
  rw [Cert.ReferenceIdeal.ReadP.val_main_call3_v5_apply, Cert.ReferenceIdeal.ReadP.val_main_call3_v4_apply, Cert.ReferenceIdeal.ReadP.val_main_call3_v3_apply, v94_at]
  have e : Cert.ReferenceIdeal.ReadP.idx_main_call3_v3 (Cert.ReferenceIdeal.ReadP.idx_main_call3_v4 (at2 r k)) = ix1 r :=
    funext fun a => Fin.ext (by match a with | ⟨0, _⟩ => rfl)
  rw [e, v2_at]
  rfl

/-- The whole array's result at row r, column q: the log-softmax of row r of the scores plus the bias. -/
theorem ref_apply (r : Fin 100000) (q : Fin 40) :
    Cert.ReferenceIdeal.ReadP.val_main_v95 (F := Ideal) x0 x1 x2 x3 x4 x5 x6 (at2 r q) = rowLsm (refRow x0 x1 x2 x3 x4 x5 x6 r) q := by
  rw [Cert.ReferenceIdeal.ReadP.val_main_v95_apply, Cert.ReferenceIdeal.ReadP.val_main_call3_v10_apply, Cert.ReferenceIdeal.ReadP.val_main_call3_v9_apply, Cert.ReferenceIdeal.ReadP.val_main_call3_v8_apply,
    Cert.ReferenceIdeal.ReadP.val_main_call3_v7_apply, Cert.ReferenceIdeal.ReadP.val_main_call3_cst_1_apply, v5_at]
  have e : Cert.ReferenceIdeal.ReadP.idx_main_call3_v8 (Cert.ReferenceIdeal.ReadP.idx_main_call3_v10 (at2 r q)) = ix1 r :=
    funext fun a => Fin.ext (by match a with | ⟨0, _⟩ => rfl)
  rw [e]
  have hs : ∀ k : Fin 40, Cert.ReferenceIdeal.ReadP.val_main_call3_v6 (F := Ideal) x0 x1 x2 x3 x4 x5 x6 (Cert.ReferenceIdeal.ReadP.idx_main_call3_v7 (ix1 r) k)
      = Ideal.exp (refRow x0 x1 x2 x3 x4 x5 x6 r k - rowMax (refRow x0 x1 x2 x3 x4 x5 x6 r)) := fun k => by
    rw [Cert.ReferenceIdeal.ReadP.val_main_call3_v6_apply]
    have e7 : Cert.ReferenceIdeal.ReadP.idx_main_call3_v7 (ix1 r) k = at2 r k :=
      funext fun a => Fin.ext (by match a with | ⟨0, _⟩ => rfl | ⟨1, _⟩ => rfl)
    rw [e7, v5_at, Ideal.hostUnary_exp_def]
  simp only [hs]
  unfold rowLsm
  rw [Ideal.ofBits_def, Ideal.ofBits_zero_f32, zero_add, Ideal.hostUnary_log_def, Ideal.subf_def]

/-! ## From the blocks to the array -/

/-- The index maps over the grid: point `t` takes block row `t` of the scores and of the result, and the one
    block of the bias. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- The two input blocks at a point, at their literal types. -/
abbrev xblk (c : Dev nD) (t : Fin cfg2.N) : Vec Ideal S5000x40 .f32 := iblk2 V c 0 t
abbrev bblk (c : Dev nD) (t : Fin cfg2.N) : Vec Ideal S40 .f32 := iblk2 V c 1 t

/-- Row y₀ of the block of scores at point `t` is row 5000·t + y₀ of the array. -/
theorem xblk_apply (c : Dev nD) (t : Fin cfg2.N) (y : S5000x40.Idx) (i : S100000x40.Idx)
    (h0 : (i 0).val = 5000 * t.val + (y 0).val) (h1 : (i 1).val = (y 1).val) :
    xblk V c t y = (V c main_v59 : Vec Ideal S100000x40 .f32) i := by
  obtain ⟨e0, e1, e2, e3, e4⟩ := idx_facts t
  show iblk2 V c 0 t y = _
  unfold iblk2
  rw [View.read_apply]
  show V c main_v59 (((cfg2.win 0).blk t).view.emb y) = V c main_v59 i
  congr 1
  funext a; apply Fin.ext
  match a with
  | ⟨0, _⟩ => show win2_0.index t (0 : Fin 2) * 5000 + 1 * (y 0).val = (i 0).val; omega
  | ⟨1, _⟩ => show win2_0.index t (1 : Fin 2) * 40 + 1 * (y 1).val = (i 1).val; omega
/-- The one block of the bias is the bias. -/
theorem bblk_apply (c : Dev nD) (t : Fin cfg2.N) (y : S40.Idx) :
    bblk V c t y = (V c main_arg6 : Vec Ideal S40 .f32) y := by
  obtain ⟨e0, e1, e2, e3, e4⟩ := idx_facts t
  show iblk2 V c 1 t y = _
  unfold iblk2
  rw [View.read_apply]
  show V c main_arg6 (((cfg2.win 1).blk t).view.emb y) = V c main_arg6 y
  congr 1
  funext a; apply Fin.ext
  match a with
  | ⟨0, _⟩ => show win2_1.index t (0 : Fin 1) * 40 + 1 * (y 0).val = (y 0).val; omega

/-- The log-softmax of the rows of the whole array plus the bias, as the region finds them. -/
def G : Buf (Elt Ideal) ((c : Thread nD τ).loc main_v60) :=
  Cert.ReferenceIdeal.ReadP.val_main_v95 (F := Ideal) x0 x1 x2 x3 x4 x5 (V c main_arg6)

/-- What point `t` writes back is block `t` of the whole array's result, when the region finds the aggregated
    scores in its first operand. -/
theorem flushed_eq (h59 : V c main_v59 = Cert.ReferenceIdeal.ReadP.val_main_v91 (F := Ideal) x0 x1 x2 x3 x4 x5) (t : Fin cfg2.N) :
    (dat2 V c).flushed 2 t = ((cfg2.win 2).blk t).view.read (Elt Ideal) (G V c x0 x1 x2 x3 x4 x5) := by
  show (cfg2.win 2).cut (grid2.coords t) ((dat2 V c).after 2 t) = _
  rw [after2_2]
  unfold out2_2
  rw [View.canon_unit_zero hz]
  simp only [View.ld_unit_zero (S := S5000x40) hz, View.ld_unit_zero (S := S40) hz1]
  obtain ⟨e0, e1, e2, e3, e4⟩ := idx_facts t
  have hN : cfg2.N = 20 := N_2
  have htl : t.val < 20 := hN ▸ t.isLt
  funext j
  obtain ⟨p, q, rfl⟩ : ∃ (p : Fin 5000) (q : Fin 40), j = ix2 p q := ⟨j 0, j 1, eq_ix2 j⟩
  refine (pay_apply (xblk V c t) (bblk V c t) p q).trans ?_
  have hemb : ((cfg2.win 2).blk t).view.emb (ix2 p q) = at2 (⟨5000 * t.val + p.val, by have := p.isLt; omega⟩ : Fin 100000) q := by
    funext a; apply Fin.ext
    match a with
    | ⟨0, _⟩ => show win2_2.index t (0 : Fin 2) * 5000 + 1 * p.val = 5000 * t.val + p.val; omega
    | ⟨1, _⟩ => show win2_2.index t (1 : Fin 2) * 40 + 1 * q.val = q.val; omega
  rw [View.read_apply]
  refine Eq.trans ?_ (cast_eq _ _).symm
  rw [hemb]
  unfold G
  rw [ref_apply]
  refine congrArg (fun y => rowLsm y q) (funext fun k => ?_)
  unfold refRow
  rw [← h59]
  refine congr (congrArg (fun u v : Ideal .f32 => u + v) ?_) ?_
  · exact xblk_apply V c t (ix2 p k) (at2 (⟨5000 * t.val + p.val, by have := p.isLt; omega⟩ : Fin 100000) k) rfl rfl
  · exact bblk_apply V c t (ix1 k)

/-- An index of the result is in point `t`'s block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v60).slice (win2_2.rect t)).set ↔ _
  rw [View.set_slice_whole, Rect.mem_set_unit]
  exact Iff.rfl

/-- Every row of the result lies in the block of the point `row / 5000`. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  obtain ⟨e0, e1, e2, e3, e4⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The result array after the region. -/
theorem final (h59 : V c main_v59 = Cert.ReferenceIdeal.ReadP.val_main_v91 (F := Ideal) x0 x1 x2 x3 x4 x5) :
    (dat2 V c).arrAt 2 cfg2.N = G V c x0 x1 x2 x3 x4 x5 :=
  (dat2 V c).arrAt_eq_of_cover 2 (G V c x0 x1 x2 x3 x4 x5) (fun t _ => flushed_eq V c x0 x1 x2 x3 x4 x5 h59 t) cover

end

end Cert.KernelIdeal.Region2

end
-- ==== Proof.FoldHost.lean ====
/-
  The kernel program's host stretches, read back at any float instance: what the buffers the regions and the
  later stretches read hold after each stretch, as the same functions of the argument arrays that the reference
  program's stages are. The two programs' host lines are the same operations in the same order (the reference
  repeats the edge normalisation, the source and the destination lists for its second layer; the kernel program
  computes them once), so each value is the reference's stage by unfolding the stages met on the way.
-/
import proofs.«156127_j30039001269040_1_alg».proof.Proof.Gen.KernelIdeal.Frame
import proofs.«156127_j30039001269040_1_alg».proof.Proof.RefRead
import proofs.«156127_j30039001269040_1_alg».proof.Proof.LibCat
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.FoldHost

open Cert.KernelIdeal Cert.KernelIdeal.Gen

variable {F : FTy → Type} [FloatOps F]
variable (m : (ℓ : Loc nD τ sig) → Buf (Elt F) ℓ) (ρ : Dev nD → PrngReg) (c : Dev nD)

/-- Read one buffer back through a list of host operations: every operation's result at its own buffer is its
    function's value and any other buffer is what was there; a two-operand concatenate is folded so that the
    pass reaches its operands, and the typed references of an inlined call are plain buffers. -/
macro "host_read" : tactic =>
  `(tactic| (after_results_simp
             (try simp only [cat2_fold])
             (try after_results_simp)
             (try simp only [cat2, TRef.ofBuf, TRef.toBuf, cast_eq])))

/-- The seven argument arrays at launch. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-! ## The reference's repeated lines are its first ones -/

theorem ref_src (x1 : (⟨Cert.ReferenceIdeal.S2x1600000, .i32⟩ : BufTy).Contents (Elt F)) :
    Cert.ReferenceIdeal.ReadP.val_main_v52 (F := F) x1 = Cert.ReferenceIdeal.ReadP.val_main_v6 (F := F) x1 := rfl
theorem ref_dst (x1 : (⟨Cert.ReferenceIdeal.S2x1600000, .i32⟩ : BufTy).Contents (Elt F)) :
    Cert.ReferenceIdeal.ReadP.val_main_v53 (F := F) x1 = Cert.ReferenceIdeal.ReadP.val_main_v7 (F := F) x1 := rfl
theorem ref_norm (x1 : (⟨Cert.ReferenceIdeal.S2x1600000, .i32⟩ : BufTy).Contents (Elt F)) (x2 : (⟨Cert.ReferenceIdeal.S1600000, .f32⟩ : BufTy).Contents (Elt F)) :
    Cert.ReferenceIdeal.ReadP.val_main_v78 (F := F) x1 x2 = Cert.ReferenceIdeal.ReadP.val_main_v32 (F := F) x1 x2 := rfl

/-! ## Before the first region -/

theorem W3_arg0 : W3 m ρ c (Proc.devRef .tc main_arg0) = a0 m c := by
  show StableHlo.after hostOps0_2 (StableHlo.after hostOps0_1 (StableHlo.after hostOps0 (W0 m ρ c))) (Proc.devRef .tc main_arg0) = _
  dsimp only [hostOps0, hostOps0_1, hostOps0_2]
  host_read
theorem W3_arg3 : W3 m ρ c (Proc.devRef .tc main_arg3) = a3 m c := by
  show StableHlo.after hostOps0_2 (StableHlo.after hostOps0_1 (StableHlo.after hostOps0 (W0 m ρ c))) (Proc.devRef .tc main_arg3) = _
  dsimp only [hostOps0, hostOps0_1, hostOps0_2]
  host_read
theorem W3_arg4 : W3 m ρ c (Proc.devRef .tc main_arg4) = a4 m c := by
  show StableHlo.after hostOps0_2 (StableHlo.after hostOps0_1 (StableHlo.after hostOps0 (W0 m ρ c))) (Proc.devRef .tc main_arg4) = _
  dsimp only [hostOps0, hostOps0_1, hostOps0_2]
  host_read
theorem W3_arg5 : W3 m ρ c (Proc.devRef .tc main_arg5) = a5 m c := by
  show StableHlo.after hostOps0_2 (StableHlo.after hostOps0_1 (StableHlo.after hostOps0 (W0 m ρ c))) (Proc.devRef .tc main_arg5) = _
  dsimp only [hostOps0, hostOps0_1, hostOps0_2]
  host_read
theorem W3_arg6 : W3 m ρ c (Proc.devRef .tc main_arg6) = a6 m c := by
  show StableHlo.after hostOps0_2 (StableHlo.after hostOps0_1 (StableHlo.after hostOps0 (W0 m ρ c))) (Proc.devRef .tc main_arg6) = _
  dsimp only [hostOps0, hostOps0_1, hostOps0_2]
  host_read
/-- The source nodes with the self loops appended. -/
theorem W3_v5 : W3 m ρ c (Proc.devRef .tc main_v5) = Cert.ReferenceIdeal.ReadP.val_main_v6 (F := F) (a1 m c) := by
  show StableHlo.after hostOps0_2 (StableHlo.after hostOps0_1 (StableHlo.after hostOps0 (W0 m ρ c))) (Proc.devRef .tc main_v5) = _
  dsimp only [hostOps0, hostOps0_1, hostOps0_2]
  host_read
  rfl
/-- The destination nodes with the self loops appended. -/
theorem W3_v6 : W3 m ρ c (Proc.devRef .tc main_v6) = Cert.ReferenceIdeal.ReadP.val_main_v7 (F := F) (a1 m c) := by
  show StableHlo.after hostOps0_2 (StableHlo.after hostOps0_1 (StableHlo.after hostOps0 (W0 m ρ c))) (Proc.devRef .tc main_v6) = _
  dsimp only [hostOps0, hostOps0_1, hostOps0_2]
  host_read
  rfl
set_option maxHeartbeats 2000000 in
/-- The symmetric edge normalisation. -/
theorem W3_v31 : W3 m ρ c (Proc.devRef .tc main_v31) = Cert.ReferenceIdeal.ReadP.val_main_v32 (F := F) (a1 m c) (a2 m c) := by
  show StableHlo.after hostOps0_2 (StableHlo.after hostOps0_1 (StableHlo.after hostOps0 (W0 m ρ c))) (Proc.devRef .tc main_v31) = _
  dsimp only [hostOps0, hostOps0_1, hostOps0_2]
  host_read
  rfl

/-! ## Between the regions: the gather, scale and scatter of each layer -/

section Stretch1
variable (U : Valuation τ sig (Elt F))
  (x0 : (⟨Cert.ReferenceIdeal.S100000x128, .f32⟩ : BufTy).Contents (Elt F)) (x1 : (⟨Cert.ReferenceIdeal.S2x1600000, .i32⟩ : BufTy).Contents (Elt F))
  (x2 : (⟨Cert.ReferenceIdeal.S1600000, .f32⟩ : BufTy).Contents (Elt F)) (x3 : (⟨Cert.ReferenceIdeal.S128x64, .f32⟩ : BufTy).Contents (Elt F))
  (x4 : (⟨Cert.ReferenceIdeal.S64, .f32⟩ : BufTy).Contents (Elt F)) (x5 : (⟨Cert.ReferenceIdeal.S64x40, .f32⟩ : BufTy).Contents (Elt F))

/-- The first layer's aggregation, from the values the stretch reads. -/
theorem stretch1_v45 (h5 : U (Proc.devRef .tc main_v5) = Cert.ReferenceIdeal.ReadP.val_main_v6 (F := F) x1)
    (h6 : U (Proc.devRef .tc main_v6) = Cert.ReferenceIdeal.ReadP.val_main_v7 (F := F) x1)
    (h31 : U (Proc.devRef .tc main_v31) = Cert.ReferenceIdeal.ReadP.val_main_v32 (F := F) x1 x2)
    (h32 : U (Proc.devRef .tc main_v32) = Cert.ReferenceIdeal.ReadP.val_main_v4 (F := F) x0 x3) :
    StableHlo.after hostOps1 U (Proc.devRef .tc main_v45) = Cert.ReferenceIdeal.ReadP.val_main_v45 (F := F) x0 x1 x2 x3 := by
  dsimp only [hostOps1]
  host_read
  rw [h5, h6, h31, h32]
  rfl
/-- A buffer the stretch does not write keeps its contents. -/
theorem stretch1_keep (b : Ref sig .tc)
    (hb : b ∉ [main_v33, main_c_6, main_v34, main_v35, main_c_7, main_v36, main_v37, main_v38, main_v39, main_v40, main_v41, main_v42, main_cst_8, main_v43, main_v44, main_v45]) :
    StableHlo.after hostOps1 U (Proc.devRef .tc b) = U (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, Finset.mem_singleton]
  simp only [List.mem_cons, List.mem_nil_iff, or_false, not_or] at hb
  obtain ⟨h1, h2, h3, h4, h5, h6, h7, h8, h9, h10, h11, h12, h13, h14, h15, h16⟩ := hb
  exact ⟨StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16⟩

/-- The second layer's aggregation, from the values the stretch reads. -/
theorem stretch2_v59 (h5 : U (Proc.devRef .tc main_v5) = Cert.ReferenceIdeal.ReadP.val_main_v6 (F := F) x1)
    (h6 : U (Proc.devRef .tc main_v6) = Cert.ReferenceIdeal.ReadP.val_main_v7 (F := F) x1)
    (h31 : U (Proc.devRef .tc main_v31) = Cert.ReferenceIdeal.ReadP.val_main_v32 (F := F) x1 x2)
    (h46 : U (Proc.devRef .tc main_v46) = Cert.ReferenceIdeal.ReadP.val_main_v50 (F := F) x0 x1 x2 x3 x4 x5) :
    StableHlo.after hostOps2 U (Proc.devRef .tc main_v59) = Cert.ReferenceIdeal.ReadP.val_main_v91 (F := F) x0 x1 x2 x3 x4 x5 := by
  dsimp only [hostOps2]
  host_read
  rw [h5, h6, h31, h46, ← ref_src, ← ref_dst, ← ref_norm]
  rfl
/-- A buffer the stretch does not write keeps its contents. -/
theorem stretch2_keep (b : Ref sig .tc)
    (hb : b ∉ [main_v47, main_c_9, main_v48, main_v49, main_c_10, main_v50, main_v51, main_v52, main_v53, main_v54, main_v55, main_v56, main_cst_11, main_v57, main_v58, main_v59]) :
    StableHlo.after hostOps2 U (Proc.devRef .tc b) = U (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, Finset.mem_singleton]
  simp only [List.mem_cons, List.mem_nil_iff, or_false, not_or] at hb
  obtain ⟨h1, h2, h3, h4, h5, h6, h7, h8, h9, h10, h11, h12, h13, h14, h15, h16⟩ := hb
  exact ⟨StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16⟩

end Stretch1

end Cert.KernelIdeal.FoldHost

end
-- ==== Proof.Fold.lean ====
/-
  The kernel program's result, read through its three regions and the host stretches between them: each
  boundary's buffers are named as the reference program's stages of the seven argument arrays. A host stretch
  leaves the reference's stage because the two programs run the same host lines; a region leaves the
  reference's stage because its blocks, put together, are the whole-array operation (the three region lemmas).
  After the last region the result array is the reference's last stage.
-/
import proofs.«156127_j30039001269040_1_alg».proof.Proof.Gen.KernelIdeal.Frame
import proofs.«156127_j30039001269040_1_alg».proof.Proof.RefRead
import proofs.«156127_j30039001269040_1_alg».proof.Proof.Region0
import proofs.«156127_j30039001269040_1_alg».proof.Proof.Region1
import proofs.«156127_j30039001269040_1_alg».proof.Proof.Region2
import proofs.«156127_j30039001269040_1_alg».proof.Proof.FoldHost

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.FoldHost

variable (m : (ℓ : Loc nD τ sig) → Buf (Elt Ideal) ℓ) (ρ : Dev nD → PrngReg) (c : Dev nD)

/-! ## After the first region -/

/-- The first matrix product. -/
theorem W4_v32 : W4 m ρ c (Proc.devRef .tc main_v32) = Cert.ReferenceIdeal.ReadP.val_main_v4 (F := Ideal) (a0 m c) (a3 m c) := by
  refine (W4_arr m ρ c 2).trans ((Region0.final (V3 m ρ) c).trans ?_)
  unfold Region0.G
  dsimp only [V3]
  rw [W3_arg0, W3_arg3]
theorem W4_v5 : W4 m ρ c (Proc.devRef .tc main_v5) = Cert.ReferenceIdeal.ReadP.val_main_v6 (F := Ideal) (a1 m c) :=
  (W4_of_ne m ρ c main_v5 (by decide)).trans (W3_v5 m ρ c)
theorem W4_v6 : W4 m ρ c (Proc.devRef .tc main_v6) = Cert.ReferenceIdeal.ReadP.val_main_v7 (F := Ideal) (a1 m c) :=
  (W4_of_ne m ρ c main_v6 (by decide)).trans (W3_v6 m ρ c)
theorem W4_v31 : W4 m ρ c (Proc.devRef .tc main_v31) = Cert.ReferenceIdeal.ReadP.val_main_v32 (F := Ideal) (a1 m c) (a2 m c) :=
  (W4_of_ne m ρ c main_v31 (by decide)).trans (W3_v31 m ρ c)
theorem W4_arg4 : W4 m ρ c (Proc.devRef .tc main_arg4) = a4 m c :=
  (W4_of_ne m ρ c main_arg4 (by decide)).trans (W3_arg4 m ρ c)
theorem W4_arg5 : W4 m ρ c (Proc.devRef .tc main_arg5) = a5 m c :=
  (W4_of_ne m ρ c main_arg5 (by decide)).trans (W3_arg5 m ρ c)
theorem W4_arg6 : W4 m ρ c (Proc.devRef .tc main_arg6) = a6 m c :=
  (W4_of_ne m ρ c main_arg6 (by decide)).trans (W3_arg6 m ρ c)

/-! ## Before the second region -/

/-- The first layer's aggregation. -/
theorem W5_v45 : W5 m ρ c (Proc.devRef .tc main_v45) = Cert.ReferenceIdeal.ReadP.val_main_v45 (F := Ideal) (a0 m c) (a1 m c) (a2 m c) (a3 m c) :=
  stretch1_v45 (W4 m ρ c) _ _ _ _ (W4_v5 m ρ c) (W4_v6 m ρ c) (W4_v31 m ρ c) (W4_v32 m ρ c)
theorem W5_v5 : W5 m ρ c (Proc.devRef .tc main_v5) = Cert.ReferenceIdeal.ReadP.val_main_v6 (F := Ideal) (a1 m c) :=
  (stretch1_keep (W4 m ρ c) main_v5 (by decide)).trans (W4_v5 m ρ c)
theorem W5_v6 : W5 m ρ c (Proc.devRef .tc main_v6) = Cert.ReferenceIdeal.ReadP.val_main_v7 (F := Ideal) (a1 m c) :=
  (stretch1_keep (W4 m ρ c) main_v6 (by decide)).trans (W4_v6 m ρ c)
theorem W5_v31 : W5 m ρ c (Proc.devRef .tc main_v31) = Cert.ReferenceIdeal.ReadP.val_main_v32 (F := Ideal) (a1 m c) (a2 m c) :=
  (stretch1_keep (W4 m ρ c) main_v31 (by decide)).trans (W4_v31 m ρ c)
theorem W5_arg4 : W5 m ρ c (Proc.devRef .tc main_arg4) = a4 m c :=
  (stretch1_keep (W4 m ρ c) main_arg4 (by decide)).trans (W4_arg4 m ρ c)
theorem W5_arg5 : W5 m ρ c (Proc.devRef .tc main_arg5) = a5 m c :=
  (stretch1_keep (W4 m ρ c) main_arg5 (by decide)).trans (W4_arg5 m ρ c)
theorem W5_arg6 : W5 m ρ c (Proc.devRef .tc main_arg6) = a6 m c :=
  (stretch1_keep (W4 m ρ c) main_arg6 (by decide)).trans (W4_arg6 m ρ c)

/-! ## After the second region -/

/-- The bias, the clamp and the second matrix product. -/
theorem W6_v46 : W6 m ρ c (Proc.devRef .tc main_v46) = Cert.ReferenceIdeal.ReadP.val_main_v50 (F := Ideal) (a0 m c) (a1 m c) (a2 m c) (a3 m c) (a4 m c) (a5 m c) := by
  refine (W6_arr m ρ c 3).trans ((Region1.final (V5 m ρ) c (a0 m c) (a1 m c) (a2 m c) (a3 m c) (W5_v45 m ρ c)).trans ?_)
  unfold Region1.G
  dsimp only [V5]
  rw [W5_arg4, W5_arg5]
theorem W6_v5 : W6 m ρ c (Proc.devRef .tc main_v5) = Cert.ReferenceIdeal.ReadP.val_main_v6 (F := Ideal) (a1 m c) :=
  (W6_of_ne m ρ c main_v5 (by decide)).trans (W5_v5 m ρ c)
theorem W6_v6 : W6 m ρ c (Proc.devRef .tc main_v6) = Cert.ReferenceIdeal.ReadP.val_main_v7 (F := Ideal) (a1 m c) :=
  (W6_of_ne m ρ c main_v6 (by decide)).trans (W5_v6 m ρ c)
theorem W6_v31 : W6 m ρ c (Proc.devRef .tc main_v31) = Cert.ReferenceIdeal.ReadP.val_main_v32 (F := Ideal) (a1 m c) (a2 m c) :=
  (W6_of_ne m ρ c main_v31 (by decide)).trans (W5_v31 m ρ c)
theorem W6_arg6 : W6 m ρ c (Proc.devRef .tc main_arg6) = a6 m c :=
  (W6_of_ne m ρ c main_arg6 (by decide)).trans (W5_arg6 m ρ c)

/-! ## Before and after the third region -/

/-- The second layer's aggregation. -/
theorem W7_v59 : W7 m ρ c (Proc.devRef .tc main_v59) = Cert.ReferenceIdeal.ReadP.val_main_v91 (F := Ideal) (a0 m c) (a1 m c) (a2 m c) (a3 m c) (a4 m c) (a5 m c) :=
  stretch2_v59 (W6 m ρ c) _ _ _ _ _ _ (W6_v5 m ρ c) (W6_v6 m ρ c) (W6_v31 m ρ c) (W6_v46 m ρ c)
theorem W7_arg6 : W7 m ρ c (Proc.devRef .tc main_arg6) = a6 m c :=
  (stretch2_keep (W6 m ρ c) main_arg6 (by decide)).trans (W6_arg6 m ρ c)

/-- The result array after the run: the reference's last stage of the argument arrays. -/
theorem W8_v60 : W8 m ρ c (Proc.devRef .tc main_v60)
    = Cert.ReferenceIdeal.ReadP.val_main_v95 (F := Ideal) (a0 m c) (a1 m c) (a2 m c) (a3 m c) (a4 m c) (a5 m c) (a6 m c) := by
  refine (W8_arr m ρ c 2).trans ((Region2.final (V7 m ρ) c (a0 m c) (a1 m c) (a2 m c) (a3 m c) (a4 m c) (a5 m c) (W7_v59 m ρ c)).trans ?_)
  unfold Region2.G
  dsimp only [V7]
  rw [W7_arg6]

end Cert.KernelIdeal.Fold

end
-- ==== Proof.lean ====
/-
  A two-layer graph convolution with a log-softmax, computed on the device in three tiled regions — a matrix
  product, a bias–clamp–matrix product, and a bias–log-softmax over the rows — with the edge normalisation and
  the two gather–scale–scatter aggregations left to host operations between them, against the same network
  written with whole-array operations. Over the extended reals both compute one function of the seven
  arguments. The host lines are the same operations in both programs (the reference repeats the edge lists
  and the normalisation for its second layer). Each tiled region works on blocks of 5000 rows, and each of its
  steps acts within a row: a row of a matrix product depends on that row of the left factor only, a bias and a
  clamp act entry by entry, and a log-softmax of a row depends on that row only; so the twenty blocks together
  are the whole-array operation. No algebraic law beyond these is used and the precondition is not opened:
  the sums are the same sums in the same order, the row maximum once more against −∞ is the row maximum, and
  a sum started from zero is the sum.
-/
import proofs.«156127_j30039001269040_1_alg».proof.Defs
import proofs.«156127_j30039001269040_1_alg».proof.Proof.Gen.Kernel
import proofs.«156127_j30039001269040_1_alg».proof.Proof.Gen.Kernel.Frame
import proofs.«156127_j30039001269040_1_alg».proof.Proof.Gen.KernelIdeal
import proofs.«156127_j30039001269040_1_alg».proof.Proof.Gen.KernelIdeal.Frame
import proofs.«156127_j30039001269040_1_alg».proof.Proof.Gen.ReferenceIdeal
import proofs.«156127_j30039001269040_1_alg».proof.Proof.Gen.Pre_finite_inputs
import proofs.«156127_j30039001269040_1_alg».proof.Proof.KRun
import proofs.«156127_j30039001269040_1_alg».proof.Proof.RefStages
import proofs.«156127_j30039001269040_1_alg».proof.Proof.Fold
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_p : Cert.frame_Kernel := fun m ρ _ => Cert.Kernel.Gen.frame m ρ
/-- So does the kernel program read over the extended reals. -/
theorem frame_pi : Cert.frame_KernelIdeal := fun m ρ _ => Cert.KernelIdeal.Gen.frame m ρ
/-- So does the reference: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- Both programs end with the reference's last stage of the argument arrays in the result: the kernel program
    through its regions and stretches, the reference through its stages, from memories that agree on the arguments. -/
theorem algebraic : Cert.algebraic_KernelIdeal_ReferenceIdeal := by
  intro m ρ m' ρ' _ hagree
  refine ⟨fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Fold.W8_v60 m ρ c), (h c).2⟩)
      (Cert.KernelIdeal.GenRun.run (F := Ideal) m ρ)
  · refine (θ_run Cert.ReferenceIdeal.defs _ _).mono (fun _ h c => ⟨(h c).1.trans ?_, (h c).2⟩)
      (Cert.ReferenceIdeal.Stages.run (F := Ideal) m' ρ')
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
